-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x256 .f32) (main_arg1 : FVec F S10000x10000 .f32) (main_arg2 : FVec F S10000x10000 .f32) (main_arg3 : FVec F S256x256 .f32) (main_arg4 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S200x10000 : Shape := ⟨2, ![200, 10000]⟩
abbrev S200x256 : Shape := ⟨2, ![200, 256]⟩

abbrev nBuf : Space → Nat
  | .hbm => 7
  | .vmem => 10
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000x10000, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S200x256, .f32⟩
  | .local _ .vmem, ⟨8, _⟩ => ⟨S200x256, .f32⟩
  | .local _ .vmem, ⟨9, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S200x10000_S200x10000_0_0 : ∀ a, (![0, 0] : Fin 2 → Nat) a + S200x10000.size a ≤ S200x10000.size a
  h_S200x10000 : 0 < S200x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x256.size a ≤ S10000x256.size a
  hwx0_5 : ∀ i : grid0.Coords, EltTy.bits .f32 = 32 ∨ (Rect.block (s := S10000x256) S200x256.size (cc0_transform_5 i) (hinb0_5 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S200x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000x10000, .f32⟩
  | .hbm, ⟨3, _⟩ => ⟨S256x256, .f32⟩
  | .hbm, ⟨4, _⟩ => ⟨S256, .f32⟩
  | .hbm, ⟨5, _⟩ => ⟨S10000x256, .f32⟩
  | .hbm, ⟨6, _⟩ => ⟨S10000x256, .f32⟩
  | .hbm, ⟨7, _⟩ => ⟨S10000x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Pieces.lean ====
/-
  What one run of the kernel body leaves behind, as values.

  At the grid's first point the body computes the support matrix from the whole v and w blocks, stores it into the
  scratch buffer, reads it back, and stores the output block computed from it; at every later point it only reads the
  scratch buffer and stores the output block. Each store covers its buffer whole, so the buffer ends holding exactly the
  stored payload: the scratch holds the first payload of (v, w), the output block the second payload of the two adjacency
  blocks, the scratch contents and the bias row.
-/
import proofs.«171416_g37555194037034_cont_8to1_b_1611_11_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point: the scratch buffer ends holding the support payload of the v and w blocks. -/
theorem scratch_first (c : Dev nD) (i : grid0.Coords) (a1 : Memref sig .tc .vmem S10000x256 .f32) (h1 : a1.IsWhole)
    (a2 : Memref sig .tc .vmem S256x256 .f32) (h2 : a2.IsWhole) (a3 : Memref sig .tc .vmem S1x256 .f32) (h3 : a3.IsWhole)
    (a4 : Memref sig .tc .vmem S200x10000 .f32) (h4 : a4.IsWhole) (a5 : Memref sig .tc .vmem S200x10000 .f32) (h5 : a5.IsWhole)
    (a6 : Memref sig .tc .vmem S200x256 .f32) (h6 : a6.IsWhole) (a7 : Memref sig .tc .vmem S10000x256 .bf16) (h7 : a7.IsWhole)
    (hc : cond0_0 i) (x0 : Vec F S10000x256 .f32) (x1 : Vec F S256x256 .f32) (x2 : Vec F S1x256 .f32)
    (x3 x4 : Vec F S200x10000 .f32) :
    sout0_A_0 c i a1 h1 a2 h2 a3 h3 a4 h4 a5 h5 a6 h6 a7 h7 hc x0 x1 x2 x3 x4 = k0_pay1 x0 x1 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, View.ld_unit_zero (S := S10000x256) hz,
    View.ld_unit_zero (S := S256x256) hz]

/-- First point: the output block ends holding the output payload of the two adjacency blocks, the support payload just
    stored (read back from the scratch buffer) and the bias row. -/
theorem out_first (c : Dev nD) (i : grid0.Coords) (a1 : Memref sig .tc .vmem S10000x256 .f32) (h1 : a1.IsWhole)
    (a2 : Memref sig .tc .vmem S256x256 .f32) (h2 : a2.IsWhole) (a3 : Memref sig .tc .vmem S1x256 .f32) (h3 : a3.IsWhole)
    (a4 : Memref sig .tc .vmem S200x10000 .f32) (h4 : a4.IsWhole) (a5 : Memref sig .tc .vmem S200x10000 .f32) (h5 : a5.IsWhole)
    (a6 : Memref sig .tc .vmem S200x256 .f32) (h6 : a6.IsWhole) (a7 : Memref sig .tc .vmem S10000x256 .bf16) (h7 : a7.IsWhole)
    (hc : cond0_0 i) (x0 : Vec F S10000x256 .f32) (x1 : Vec F S256x256 .f32) (x2 : Vec F S1x256 .f32)
    (x3 x4 : Vec F S200x10000 .f32) :
    out0_A_5 c i a1 h1 a2 h2 a3 h3 a4 h4 a5 h5 a6 h6 a7 h7 hc x0 x1 x2 x3 x4 = k0_pay2 x3 x4 (k0_pay1 x0 x1) x2 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero (S := S200x256) hz]
  simp only [View.readAt_eq_ld, h1.read_unread, h2.read_unread, h3.read_unread, h4.read_unread, h5.read_unread,
    View.readCov_unit_zero (S := S10000x256) _ hz, View.ld_unit_zero (S := S10000x256) hz,
    View.ld_unit_zero (S := S256x256) hz, View.ld_unit_zero (S := S200x10000) hz, View.ld_unit_zero (S := S1x256) hz]

/-- A later point: the output block ends holding the output payload of the two adjacency blocks, what the scratch buffer
    held on entry, and the bias row. -/
theorem out_later (c : Dev nD) (i : grid0.Coords) (a1 : Memref sig .tc .vmem S10000x256 .f32) (h1 : a1.IsWhole)
    (a2 : Memref sig .tc .vmem S256x256 .f32) (h2 : a2.IsWhole) (a3 : Memref sig .tc .vmem S1x256 .f32) (h3 : a3.IsWhole)
    (a4 : Memref sig .tc .vmem S200x10000 .f32) (h4 : a4.IsWhole) (a5 : Memref sig .tc .vmem S200x10000 .f32) (h5 : a5.IsWhole)
    (a6 : Memref sig .tc .vmem S200x256 .f32) (h6 : a6.IsWhole) (a7 : Memref sig .tc .vmem S10000x256 .bf16) (h7 : a7.IsWhole)
    (hc : ¬cond0_0 i) (x0 : Vec F S10000x256 .f32) (x1 : Vec F S256x256 .f32) (x2 : Vec F S1x256 .f32)
    (x3 x4 : Vec F S200x10000 .f32) (xs0 : Vec F S10000x256 .bf16) :
    out0_B_5 c i a1 h1 a2 h2 a3 h3 a4 h4 a5 h5 a6 h6 a7 h7 hc x0 x1 x2 x3 x4 xs0 = k0_pay2 x3 x4 xs0 x2 := by
  unfold out0_B_5
  rw [View.read_writes_eq_canon _ _ _ (cover0_B_5 c i a1 h1 a2 h2 a3 h3 a4 h4 a5 h5 a6 h6 a7 h7 hc x0 x1 x2 x3 x4 xs0)]
  unfold kernelRun0_B
  dsimp only
  sl_unfold_words
  rw [View.canon_unit_zero (S := S200x256) hz]
  simp only [View.readAt_eq_ld, h3.read_unread, h4.read_unread, h5.read_unread, h7.read_unread,
    View.ld_unit_zero (S := S10000x256) hz, View.ld_unit_zero (S := S200x10000) hz, View.ld_unit_zero (S := S1x256) hz]

end Cert.KernelIdeal.Pieces

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Payload.lean ====
/-
  The two payloads of the kernel body, read at an index, on the extended reals.

  A change of float format is the identity there, a reshape to the same shape reads the same index, and the matrix unit's
  product into a zero accumulator is the plain sum over the contracted coordinate. So the support payload of blocks
  (x0, x1) at (κ, q) is Σ_j x0 (κ, j) · x1 (j, q), and the output payload of the adjacency blocks (x3, x4), a support
  block s and the bias row x2, at (r, q), is Σ_κ (x3 (r, κ) + x4 (r, κ)) · s (κ, q) + x2 (0, q).
-/
import proofs.«171416_g37555194037034_cont_8to1_b_1611_11_alg».proof.Proof.Gen.KernelIdeal.Skeleton
import proofs.«171416_g37555194037034_cont_8to1_b_1611_11_alg».proof.Proof.LibPlainDot
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The support product's dimension numbers are the plain ones: [10000, 256] by [256, 256]. -/
theorem plain_support : PlainDot.IsPlain dot_S10000x256_S256x256_S10000x256_1_0_0_1_n_n := ⟨rfl, rfl, rfl, rfl, rfl, rfl⟩

/-- The output product's dimension numbers are the plain ones: [200, 10000] by [10000, 256]. -/
theorem plain_output : PlainDot.IsPlain dot_S200x10000_S10000x256_S200x256_1_0_0_1_n_n := ⟨rfl, rfl, rfl, rfl, rfl, rfl⟩

/-- The support payload at (κ, q): the sum over j of x0 (κ, j) · x1 (j, q). -/
theorem support_apply (x0 : Vec Ideal S10000x256 .f32) (x1 : Vec Ideal S256x256 .f32) (κ : Fin 10000) (q : Fin 256) :
    k0_pay1 (F := Ideal) x0 x1 (ix2 κ q) = ∑ j : Fin 256, x0 (ix2 κ j) * x1 (ix2 j q) := by
  unfold k0_pay1
  refine (congrFun (shapeCast_self _ _) (ix2 κ q)).trans ?_
  exact PlainDot.matmul_zero_plain dot_S10000x256_S256x256_S10000x256_1_0_0_1_n_n plain_support none
    (truncf (F := Ideal) .bf16 x0 bitsLt_bf16_f32) (truncf (F := Ideal) .bf16 x1 bitsLt_bf16_f32) κ q

/-- The bias row broadcast down the block reads the row's entry in the same column. -/
theorem bias_row_apply (x2 : Vec Ideal S1x256 .f32) (r : Fin 200) (q : Fin 256) :
    broadcastTo S200x256 (shapeCast S1x256 x2 shapeCasts_S1x256_S1x256) broadcasts_S1x256_S200x256 (ix2 r q)
      = x2 (ix2 (0 : Fin 1) q) := by
  rw [shapeCast_self]
  exact broadcastTo_apply x2 broadcasts_S1x256_S200x256 (ix2 r q) (ix2 (0 : Fin 1) q) (fun a => by
    match a with
    | ⟨0, _⟩ => rfl
    | ⟨1, _⟩ => rfl)

/-- The output payload at (r, q): the sum over κ of (x3 (r, κ) + x4 (r, κ)) · s (κ, q), plus the bias row's entry at q. -/
theorem output_apply (x3 x4 : Vec Ideal S200x10000 .f32) (s : Vec Ideal S10000x256 .bf16) (x2 : Vec Ideal S1x256 .f32)
    (r : Fin 200) (q : Fin 256) :
    k0_pay2 (F := Ideal) x3 x4 s x2 (ix2 r q)
      = (∑ κ : Fin 10000, (x3 (ix2 r κ) + x4 (ix2 r κ)) * s (ix2 κ q)) + x2 (ix2 (0 : Fin 1) q) := by
  unfold k0_pay2
  refine (addf_apply _ _ (ix2 r q)).trans ?_
  refine congrArg₂ (· + ·) ?_ (bias_row_apply x2 r q)
  exact PlainDot.matmul_zero_plain dot_S200x10000_S10000x256_S200x256_1_0_0_1_n_n plain_output none
    (truncf (F := Ideal) .bf16 (addf x3 x4) bitsLt_bf16_f32) s r q

end Cert.KernelIdeal.Payload

end
-- ==== Proof.GcSpec.lean ====
/-
  The graph-convolution layer as one function of its five argument arrays, and the law that joins its two readings.

  With S = v · w the support matrix (S (κ, q) = Σ_j v (κ, j) · w (j, q)), the layer's output at (p, q) is

      Σ_κ (ad (p, κ) + aa (p, κ)) · S (κ, q) + b q              (the two adjacency matrices added first, one product)

  and, read the other way,

      (Σ_κ ad (p, κ) · S (κ, q) + Σ_κ aa (p, κ) · S (κ, q)) + b q   (two products, then added).

  On the extended reals the two agree when every entry involved is a real number: (x + y) · z = x · z + y · z holds for
  reals, and fails at infinities of opposite sign; a sum of products of reals is again a real, so S is real-valued as
  soon as v and w are.
-/
import Idealize.ShloMosaic.PureOps.Ideal.Laws
import Idealize.ShloMosaic.Lib.ValueIdx

noncomputable section

open scoped BigOperators

namespace Cert.GcSpec
open Idealize.ShloMosaic Idealize.ShloMosaic.ValueIdx

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of reals is a real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- Multiplication distributes over a sum of two reals, the common factor a real too. -/
theorem add_mul_of_isReal {x y z : EReal} (hx : IsReal x) (hy : IsReal y) (hz : IsReal z) : (x + y) * z = x * z + y * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, add_mul]

/-- The law that joins the two readings: a sum of (x κ + y κ) · z κ splits into the two sums, all entries real. -/
theorem sum_add_mul_of_isReal {ι : Type} [Fintype ι] (x y z : ι → EReal)
    (hx : ∀ κ, IsReal (x κ)) (hy : ∀ κ, IsReal (y κ)) (hz : ∀ κ, IsReal (z κ)) :
    ∑ κ, (x κ + y κ) * z κ = ∑ κ, x κ * z κ + ∑ κ, y κ * z κ := by
  rw [← Finset.sum_add_distrib]
  exact Finset.sum_congr rfl fun κ _ => add_mul_of_isReal (hx κ) (hy κ) (hz κ)

/-- The support matrix S = v · w, entry (κ, q): the sum over j of v (κ, j) · w (j, q). -/
def support (v : FVec Ideal ⟨2, ![10000, 256]⟩ .f32) (w : FVec Ideal ⟨2, ![256, 256]⟩ .f32) (κ : Fin 10000) (q : Fin 256) : EReal :=
  ∑ j : Fin 256, v (ix2 κ j) * w (ix2 j q)

/-- The support matrix of real-valued v and w is real-valued. -/
theorem support_isReal (v : FVec Ideal ⟨2, ![10000, 256]⟩ .f32) (w : FVec Ideal ⟨2, ![256, 256]⟩ .f32)
    (hv : ∀ i, IsReal (v i)) (hw : ∀ i, IsReal (w i)) (κ : Fin 10000) (q : Fin 256) : IsReal (support v w κ q) :=
  IsReal.sum _ _ fun j => (hv _).mul (hw _)

/-- The layer's output as ONE function of the argument arrays: at (p, q), the sum over κ of (ad (p, κ) + aa (p, κ)) · S (κ, q),
    plus the bias b q. -/
def layer (v : FVec Ideal ⟨2, ![10000, 256]⟩ .f32) (ad aa : FVec Ideal ⟨2, ![10000, 10000]⟩ .f32)
    (w : FVec Ideal ⟨2, ![256, 256]⟩ .f32) (b : FVec Ideal ⟨1, ![256]⟩ .f32) : FVec Ideal ⟨2, ![10000, 256]⟩ .f32 :=
  fun i => (∑ κ : Fin 10000, (ad (ix2 (i 0) κ) + aa (ix2 (i 0) κ)) * support v w κ (i 1)) + b (ix1 (i 1))

/-- The other reading — two products with the support matrix, added, then the bias — is the layer's output, all entries real. -/
theorem two_products_eq_layer (v : FVec Ideal ⟨2, ![10000, 256]⟩ .f32) (ad aa : FVec Ideal ⟨2, ![10000, 10000]⟩ .f32)
    (w : FVec Ideal ⟨2, ![256, 256]⟩ .f32) (b : FVec Ideal ⟨1, ![256]⟩ .f32)
    (hv : ∀ i, IsReal (v i)) (had : ∀ i, IsReal (ad i)) (haa : ∀ i, IsReal (aa i)) (hw : ∀ i, IsReal (w i))
    (p : Fin 10000) (q : Fin 256) :
    (∑ κ : Fin 10000, ad (ix2 p κ) * support v w κ q + ∑ κ : Fin 10000, aa (ix2 p κ) * support v w κ q) + b (ix1 q)
      = layer v ad aa w b (ix2 p q) := by
  show _ = (∑ κ : Fin 10000, (ad (ix2 p κ) + aa (ix2 p κ)) * support v w κ q) + b (ix1 q)
  rw [sum_add_mul_of_isReal (fun κ => ad (ix2 p κ)) (fun κ => aa (ix2 p κ)) (fun κ => support v w κ q)
    (fun κ => had _) (fun κ => haa _) (fun κ => support_isReal v w hv hw κ q)]

end Cert.GcSpec

end
-- ==== Proof.LayerValue.lean ====
/-
  What the kernel's result array holds after the run, on the extended reals: the layer's output.

  The grid has 50 points; point t reads rows 200·t … 200·t + 199 of the two adjacency matrices and writes the same rows of
  the output. The windows on v, w and the bias row never move, so at every point their blocks are the whole arrays. The
  support matrix is computed once, at point 0, into a scratch buffer that later points only read: by induction on the point
  the scratch buffer holds the support payload of (v, w) after every point. So the block point t writes back is the output
  payload of adjacency rows 200·t …, the support payload and the bias row; read at (r, q) that is the layer's output at
  (200·t + r, q). The 50 blocks tile the array (row p lies in block p / 200), so the array ends at the layer's output.
-/
import proofs.«171416_g37555194037034_cont_8to1_b_1611_11_alg».proof.Proof.Gen.KernelIdeal.Value
import proofs.«171416_g37555194037034_cont_8to1_b_1611_11_alg».proof.Proof.Pieces
import proofs.«171416_g37555194037034_cont_8to1_b_1611_11_alg».proof.Proof.Payload
import proofs.«171416_g37555194037034_cont_8to1_b_1611_11_alg».proof.Proof.GcSpec
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen Cert.KernelIdeal.Value

variable (m : (ℓ : Loc nD τ sig) → Buf (Elt Ideal) ℓ) (ρ : Dev nD → PrngReg)

/-! ## The arrays the region finds, and the blocks a point reads, under their literal types -/

abbrev vArr (c : Dev nD) : Vec Ideal S10000x256 .f32 := V m c main_arg0
abbrev adArr (c : Dev nD) : Vec Ideal S10000x10000 .f32 := V m c main_arg1
abbrev aaArr (c : Dev nD) : Vec Ideal S10000x10000 .f32 := V m c main_arg2
abbrev wArr (c : Dev nD) : Vec Ideal S256x256 .f32 := V m c main_arg3
abbrev bRow (c : Dev nD) : Vec Ideal S1x256 .f32 := V m c main_v0

/-- The argument arrays as launched. -/
abbrev v0 (c : Dev nD) : Vec Ideal S10000x256 .f32 := (m ((c : Thread nD τ).loc main_arg0))
abbrev ad0 (c : Dev nD) : Vec Ideal S10000x10000 .f32 := (m ((c : Thread nD τ).loc main_arg1))
abbrev aa0 (c : Dev nD) : Vec Ideal S10000x10000 .f32 := (m ((c : Thread nD τ).loc main_arg2))
abbrev w0 (c : Dev nD) : Vec Ideal S256x256 .f32 := (m ((c : Thread nD τ).loc main_arg3))
abbrev b0 (c : Dev nD) : Vec Ideal S256 .f32 := (m ((c : Thread nD τ).loc main_arg4))

abbrev vBlk (c : Dev nD) (t : Fin cfg0.N) : Vec Ideal S10000x256 .f32 := iblk m c 0 t
abbrev wBlk (c : Dev nD) (t : Fin cfg0.N) : Vec Ideal S256x256 .f32 := iblk m c 1 t
abbrev bBlk (c : Dev nD) (t : Fin cfg0.N) : Vec Ideal S1x256 .f32 := iblk m c 2 t
abbrev adBlk (c : Dev nD) (t : Fin cfg0.N) : Vec Ideal S200x10000 .f32 := iblk m c 3 t
abbrev aaBlk (c : Dev nD) (t : Fin cfg0.N) : Vec Ideal S200x10000 .f32 := iblk m c 4 t

/-- The support matrix as the kernel computes it: the support payload of the whole v and w arrays. -/
abbrev supp (c : Dev nD) : Vec Ideal S10000x256 .bf16 := k0_pay1 (F := Ideal) (vArr m c) (wArr m c)

/-- No host operation before the region writes an argument: the region finds each as launched. -/
theorem vArr_eq (c : Dev nD) : vArr m c = v0 m c := V_main_arg0 m c
theorem adArr_eq (c : Dev nD) : adArr m c = ad0 m c := V_main_arg1 m c
theorem aaArr_eq (c : Dev nD) : aaArr m c = aa0 m c := V_main_arg2 m c
theorem wArr_eq (c : Dev nD) : wArr m c = w0 m c := V_main_arg3 m c

/-- The printed index maps, decided over the 50 points: the windows on v, w and the bias row stay at block (0, 0); the
    windows on the two adjacency matrices and on the output are at block (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The v block at any point is the whole v array. -/
theorem vBlk_eq (c : Dev nD) (t : Fin cfg0.N) : vBlk m c t = vArr m c := by
  funext y
  show V m c main_arg0 (((cfg0.win 0).blk t).view.emb y) = V m c main_arg0 y
  obtain ⟨e0, e1, -⟩ := idx_facts t
  refine congrArg (V m c main_arg0) (funext fun a => Fin.ext ?_)
  match a with
  | ⟨0, _⟩ => show win0_0.index t (0 : Fin 2) * 10000 + 1 * (y 0).val = (y 0).val; omega
  | ⟨1, _⟩ => show win0_0.index t (1 : Fin 2) * 256 + 1 * (y 1).val = (y 1).val; omega

/-- The w block at any point is the whole w array. -/
theorem wBlk_eq (c : Dev nD) (t : Fin cfg0.N) : wBlk m c t = wArr m c := by
  funext y
  show V m c main_arg3 (((cfg0.win 1).blk t).view.emb y) = V m c main_arg3 y
  obtain ⟨-, -, e0, e1, -⟩ := idx_facts t
  refine congrArg (V m c main_arg3) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The bias block at any point is the whole bias row. -/
theorem bBlk_eq (c : Dev nD) (t : Fin cfg0.N) : bBlk m c t = bRow m c := by
  funext y
  show V m c main_v0 (((cfg0.win 2).blk t).view.emb y) = V m c main_v0 y
  obtain ⟨-, -, -, -, e0, e1, -⟩ := idx_facts t
  refine congrArg (V m c main_v0) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Row r of the first adjacency block at point t is row 200·t + r of the array. -/
theorem adBlk_apply (c : Dev nD) (t : Fin cfg0.N) (r : Fin 200) (κ : Fin 10000) (p : Fin 10000) (hp : p.val = 200 * t.val + r.val) :
    adBlk m c t (ix2 r κ) = adArr m c (ix2 p κ) := by
  show V m c main_arg1 (((cfg0.win 3).blk t).view.emb (ix2 r κ)) = V m c main_arg1 (ix2 p κ)
  obtain ⟨-, -, -, -, -, -, e0, e1, -⟩ := idx_facts t
  refine congrArg (V m c main_arg1) (funext fun a => Fin.ext ?_)
  match a with
  | ⟨0, _⟩ => show win0_3.index t (0 : Fin 2) * 200 + 1 * r.val = p.val; omega
  | ⟨1, _⟩ => show win0_3.index t (1 : Fin 2) * 10000 + 1 * κ.val = κ.val; omega

/-- Row r of the second adjacency block at point t is row 200·t + r of the array. -/
theorem aaBlk_apply (c : Dev nD) (t : Fin cfg0.N) (r : Fin 200) (κ : Fin 10000) (p : Fin 10000) (hp : p.val = 200 * t.val + r.val) :
    aaBlk m c t (ix2 r κ) = aaArr m c (ix2 p κ) := by
  show V m c main_arg2 (((cfg0.win 4).blk t).view.emb (ix2 r κ)) = V m c main_arg2 (ix2 p κ)
  obtain ⟨-, -, -, -, -, -, -, -, e0, e1, -⟩ := idx_facts t
  refine congrArg (V m c main_arg2) (funext fun a => Fin.ext ?_)
  match a with
  | ⟨0, _⟩ => show win0_4.index t (0 : Fin 2) * 200 + 1 * r.val = p.val; omega
  | ⟨1, _⟩ => show win0_4.index t (1 : Fin 2) * 10000 + 1 * κ.val = κ.val; omega

/-- The bias row the region finds is the bias vector reshaped to one row: entry (0, q) is the vector's entry q. -/
theorem bRow_apply (c : Dev nD) (q : Fin 256) :
    bRow m c (ix2 (0 : Fin 1) q) = b0 m c (ix1 q) := by
  have e : (V m c main_v0 : S1x256.Idx → EReal)
      = shapeCast S1x256 (m ((c : Thread nD τ).loc main_arg4) : S256.Idx → EReal) shapeCasts_S256_S1x256 := by
    dsimp only [Gen.V, Gen.hostOps0]; after_results; rfl
  show (V m c main_v0 : S1x256.Idx → EReal) (ix2 (0 : Fin 1) q) = _
  rw [e]
  exact shapeCast_apply _ shapeCasts_S256_S1x256 (ix2 (0 : Fin 1) q) (ix1 q) (by
    rw [Shape.rowMajor_val_one, Shape.rowMajor_val_two]
    show q.val = 0 * 256 + q.val
    omega)

/-! ## The carried scratch: the support payload after every point -/

/-- After every point the scratch buffer holds the support payload of the whole v and w arrays: point 0 stores it, the
    later points leave it. -/
theorem scratch_eq (c : Dev nD) : ∀ (n : ℕ) (hn : n < cfg0.N), (outsAt0 m c n hn).2 = supp m c
  | 0, hn => by
    rw [outsAt0_A m c ⟨0, hn⟩ rfl]; dsimp only
    rw [Pieces.scratch_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩)]
    show k0_pay1 (F := Ideal) (vBlk m c ⟨0, hn⟩) (wBlk m c ⟨0, hn⟩) = _
    rw [vBlk_eq, wBlk_eq]
  | n + 1, hn => by
    have hN : cfg0.N = 50 := N_0
    have hB : ¬(⟨n + 1, hn⟩ : Fin cfg0.N).val % 50 = 0 := by dsimp only; omega
    rw [outsAt0_B m c ⟨n + 1, hn⟩ hB]; dsimp only
    unfold sout0_B_0
    exact scratch_eq c n _

/-- What point t leaves in the output block: the output payload of the point's adjacency blocks, the support payload of
    the whole v and w arrays, and the bias row. -/
theorem out_eq (c : Dev nD) (t : Fin cfg0.N) :
    (outsAt0 m c t.val t.isLt).1 = k0_pay2 (F := Ideal) (adBlk m c t) (aaBlk m c t) (supp m c) (bRow m c) := by
  by_cases h0 : t.val % 50 = 0
  · rw [outsAt0_A m c t h0]; dsimp only
    rw [Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)]
    show k0_pay2 (F := Ideal) (adBlk m c t) (aaBlk m c t) (k0_pay1 (F := Ideal) (vBlk m c t) (wBlk m c t)) (bBlk m c t) = _
    rw [vBlk_eq, wBlk_eq, bBlk_eq]
  · rw [outsAt0_B m c t h0]; dsimp only
    rw [Pieces.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2]
    show k0_pay2 (F := Ideal) (adBlk m c t) (aaBlk m c t) ((outsAt0 m c (t.val - 1) _).2) (bBlk m c t) = _
    rw [scratch_eq, bBlk_eq]

/-! ## From the blocks to the array -/

/-- The layer's output of the five argument arrays as launched. -/
abbrev result (c : Dev nD) : Vec Ideal S10000x256 .f32 :=
  GcSpec.layer (v0 m c) (ad0 m c) (aa0 m c) (w0 m c) (b0 m c)

/-- What point t writes back is block t of the layer's output: rows 200·t … 200·t + 199. -/
theorem flushed_eq (c : Dev nD) (t : Fin cfg0.N) :
    (dats m 0 c).flushed 5 t = ((cfg0.win 5).blk t).view.read (Elt Ideal) (result m c) := by
  rw [Value.flushed5, out_eq]
  have hN : t.val < 50 := lt_of_lt_of_eq t.isLt (show cfg0.N = 50 from N_0)
  obtain ⟨-, -, -, -, -, -, -, -, -, -, e0, e1⟩ := idx_facts t
  funext j
  obtain ⟨r, q, rfl⟩ : ∃ (r : Fin 200) (q : Fin 256), j = ix2 r q := ⟨j 0, j 1, eq_ix2 j⟩
  have hr : r.val < 200 := r.isLt
  obtain ⟨p, hp⟩ : ∃ p : Fin 10000, p.val = 200 * t.val + r.val := ⟨⟨200 * t.val + r.val, by omega⟩, rfl⟩
  have hemb : ((cfg0.win 5).blk t).view.emb (ix2 r q) = ix2 p q := by
    funext a; apply Fin.ext
    match a with
    | ⟨0, _⟩ => show win0_5.index t (0 : Fin 2) * 200 + 1 * r.val = p.val; omega
    | ⟨1, _⟩ => show win0_5.index t (1 : Fin 2) * 256 + 1 * q.val = q.val; omega
  show k0_pay2 (F := Ideal) (adBlk m c t) (aaBlk m c t) (supp m c) (bRow m c) (ix2 r q)
    = result m c (((cfg0.win 5).blk t).view.emb (ix2 r q))
  rw [hemb, Payload.output_apply, bRow_apply]
  show _ = (∑ κ : Fin 10000, (ad0 m c (ix2 p κ) + aa0 m c (ix2 p κ)) * GcSpec.support (v0 m c) (w0 m c) κ q) + b0 m c (ix1 q)
  refine congrArg₂ (· + ·) (Finset.sum_congr rfl fun κ _ => ?_) rfl
  rw [adBlk_apply m c t r κ p hp, aaBlk_apply m c t r κ p hp]
  show (adArr m c (ix2 p κ) + aaArr m c (ix2 p κ)) * k0_pay1 (F := Ideal) (vArr m c) (wArr m c) (ix2 κ q)
    = (ad0 m c (ix2 p κ) + aa0 m c (ix2 p κ)) * GcSpec.support (v0 m c) (w0 m c) κ q
  rw [Payload.support_apply, vArr_eq, adArr_eq, aaArr_eq, wArr_eq]
  rfl

/-- An index of the output array is in point t's block iff each coordinate is in the block's range on its axis. -/
theorem mem_blk (t : Fin cfg0.N) (i : S10000x256.Idx) :
    i ∈ ((cfg0.win 5).blk t).view.set ↔ ∀ a : Fin 2, win0_5.index t a * S200x256.size a ≤ (i a).val
      ∧ (i a).val < win0_5.index t a * S200x256.size a + S200x256.size a := by
  show i ∈ ((View.whole main_v1).slice (win0_5.rect t)).set ↔ _
  rw [View.set_slice_whole, Rect.mem_set_unit]
  exact Iff.rfl

/-- The 50 blocks tile the output array: row p lies in the block of point p / 200. -/
theorem cover (i : S10000x256.Idx) :
    ∃ t : Fin cfg0.N, (cfg0.win 5).flush t = true ∧ i ∈ ((cfg0.win 5).blk t).view.set := by
  have hi0 : (i 0).val < 10000 := (i 0).isLt
  have hi1 : (i 1).val < 256 := (i 1).isLt
  have hN : cfg0.N = 50 := N_0
  have ht : (i 0).val / 200 < cfg0.N := by rw [hN]; omega
  obtain ⟨-, -, -, -, -, -, -, -, -, -, e0, e1⟩ := idx_facts ⟨(i 0).val / 200, ht⟩
  refine ⟨⟨(i 0).val / 200, ht⟩, flush0_5 _, ?_⟩
  rw [mem_blk]
  intro a
  match a with
  | ⟨0, _⟩ =>
    show win0_5.index ⟨(i 0).val / 200, ht⟩ (0 : Fin 2) * 200 ≤ (i 0).val
      ∧ (i 0).val < win0_5.index ⟨(i 0).val / 200, ht⟩ (0 : Fin 2) * 200 + 200
    rw [e0]; dsimp only; omega
  | ⟨1, _⟩ =>
    show win0_5.index ⟨(i 0).val / 200, ht⟩ (1 : Fin 2) * 256 ≤ (i 1).val
      ∧ (i 1).val < win0_5.index ⟨(i 0).val / 200, ht⟩ (1 : Fin 2) * 256 + 256
    rw [e1]; omega

/-- After the run the output array holds the layer's output. -/
theorem final (c : Dev nD) : (dats m 0 c).arrAt 5 cfg0.N = result m c :=
  (dats m 0 c).arrAt_eq_of_cover 5 (result m c) (fun t _ => flushed_eq m c t) cover

/-- The kernel's run: every weakly fair execution ends with the result array at the layer's output of the arguments as
    launched, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.LayerValue

end
-- ==== Proof.RefLayer.lean ====
/-
  The reference, on the extended reals, computes the layer's output.

  Its last stage read at (p, q) is (Σ_κ ad (p, κ) · S (κ, q) + Σ_κ aa (p, κ) · S (κ, q)) + b q with S the product v · w: the two
  products with the support matrix, added, then the bias broadcast down the rows. With every entry of v, w and the two
  adjacency matrices a real number, distributivity joins the two sums into the single sum the layer's output is stated as.
-/
import proofs.«171416_g37555194037034_cont_8to1_b_1611_11_alg».proof.Proof.Gen.ReferenceIdeal.Read
import proofs.«171416_g37555194037034_cont_8to1_b_1611_11_alg».proof.Proof.GcSpec

noncomputable section

open scoped BigOperators
open Idealize.ShloMosaic Idealize.ShloMosaic.ValueIdx

namespace Cert.ReferenceIdeal.RefLayer

open Cert.ReferenceIdeal Cert.ReferenceIdeal.Gen Cert.ReferenceIdeal.Read Cert.GcSpec

/-- The support product reads its left operand at (κ, j) … -/
theorem lidx0_eq (κ : Fin 10000) (q : Fin 256) (j : Fin 256) : lidx_main_v0 (ix2 κ q) j = ix2 κ j :=
  funext fun a => Fin.ext (by match a with | ⟨0, _⟩ => rfl | ⟨1, _⟩ => rfl)
/-- … and its right operand at (j, q). -/
theorem ridx0_eq (κ : Fin 10000) (q : Fin 256) (j : Fin 256) : ridx_main_v0 (ix2 κ q) j = ix2 j q :=
  funext fun a => Fin.ext (by match a with | ⟨0, _⟩ => rfl | ⟨1, _⟩ => rfl)
/-- The first adjacency product reads its left operand at (p, κ) … -/
theorem lidx1_eq (p : Fin 10000) (q : Fin 256) (κ : Fin 10000) : lidx_main_v1 (ix2 p q) κ = ix2 p κ :=
  funext fun a => Fin.ext (by match a with | ⟨0, _⟩ => rfl | ⟨1, _⟩ => rfl)
/-- … and the support matrix at (κ, q). -/
theorem ridx1_eq (p : Fin 10000) (q : Fin 256) (κ : Fin 10000) : ridx_main_v1 (ix2 p q) κ = ix2 κ q :=
  funext fun a => Fin.ext (by match a with | ⟨0, _⟩ => rfl | ⟨1, _⟩ => rfl)
/-- The second adjacency product reads its left operand at (p, κ) … -/
theorem lidx2_eq (p : Fin 10000) (q : Fin 256) (κ : Fin 10000) : lidx_main_v2 (ix2 p q) κ = ix2 p κ :=
  funext fun a => Fin.ext (by match a with | ⟨0, _⟩ => rfl | ⟨1, _⟩ => rfl)
/-- … and the support matrix at (κ, q). -/
theorem ridx2_eq (p : Fin 10000) (q : Fin 256) (κ : Fin 10000) : ridx_main_v2 (ix2 p q) κ = ix2 κ q :=
  funext fun a => Fin.ext (by match a with | ⟨0, _⟩ => rfl | ⟨1, _⟩ => rfl)
/-- The bias broadcast to one row and then down the rows reads the bias vector at the column. -/
theorem bias_idx_eq (p : Fin 10000) (q : Fin 256) : idx_main_v4 (idx_main_v5 (ix2 p q)) = ix1 q :=
  funext fun a => Fin.ext (by match a with | ⟨0, _⟩ => rfl)

/-- The reference's first stage at (κ, q) is the support matrix's entry. -/
theorem support_eq (x0 : FVec Ideal S10000x256 .f32) (x3 : FVec Ideal S256x256 .f32) (κ : Fin 10000) (q : Fin 256) :
    val_main_v0 (F := Ideal) x0 x3 (ix2 κ q) = support x0 x3 κ q := by
  rw [val_main_v0_apply]
  simp only [lidx0_eq, ridx0_eq]
  rfl

/-- The reference's last stage is the layer's output, when v, w and the two adjacency matrices are real-valued. -/
theorem result_eq (x0 : FVec Ideal S10000x256 .f32) (x1 x2 : FVec Ideal S10000x10000 .f32) (x3 : FVec Ideal S256x256 .f32)
    (x4 : FVec Ideal S256 .f32) (h0 : ∀ i, IsReal (x0 i)) (h1 : ∀ i, IsReal (x1 i)) (h2 : ∀ i, IsReal (x2 i))
    (h3 : ∀ i, IsReal (x3 i)) :
    val_main_v6 (F := Ideal) x0 x1 x2 x3 x4 = layer x0 x1 x2 x3 x4 := by
  funext i
  obtain ⟨p, q, rfl⟩ : ∃ (p : Fin 10000) (q : Fin 256), i = ix2 p q := ⟨i 0, i 1, eq_ix2 i⟩
  rw [val_main_v6_apply, val_main_v3_apply, val_main_v1_apply, val_main_v2_apply, val_main_v5_apply, val_main_v4_apply]
  simp only [lidx1_eq, ridx1_eq, lidx2_eq, ridx2_eq, bias_idx_eq, support_eq]
  exact two_products_eq_layer x0 x1 x2 x3 x4 h0 h1 h2 h3 p q

end Cert.ReferenceIdeal.RefLayer

end
-- ==== Proof.FiniteInputs.lean ====
/-
  What the precondition says of the arrays, on the extended reals.

  The printed precondition is the conjunction, array by array, of "every entry x has |x| < +∞", each conjunct a reduction by
  "and" over the whole array of the entry-wise comparison. An extended real with max x (-x) < ⊤ is neither ⊤ nor ⊥: it is a real
  number. Read here for the first four arrays (v, the two adjacency matrices, w); the bias needs no such fact.
-/
import proofs.«171416_g37555194037034_cont_8to1_b_1611_11_alg».proof.Pre_finite_inputs
import proofs.«171416_g37555194037034_cont_8to1_b_1611_11_alg».proof.Proof.GcSpec
import Idealize.ShloMosaic.Lib.ReduceAll
import Idealize.ShloMosaic.Lib.ValueIdx
import Idealize.ShloMosaic.PureOps.Ideal

noncomputable section

open Idealize.ShloMosaic Idealize.ShloMosaic.ValueIdx

namespace Cert.Pre_finite_inputs.FiniteInputs

open Cert.Pre_finite_inputs Cert.GcSpec

variable [Facts]

/-- The scalar shape has one index. -/
instance : Subsingleton S_.Idx := ⟨fun a b => funext fun d => d.elim0⟩

/-- An extended real whose absolute value tests below +∞ is a real number. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  induction x using EReal.rec with
  | bot => simp at hlt
  | coe r => exact ⟨r, rfl⟩
  | top => simp at hlt

/-- Under the precondition every entry of v, of the two adjacency matrices and of w is a real number. -/
theorem isReal_of_pre (a0 : FVec Ideal S10000x256 .f32) (a1 a2 : FVec Ideal S10000x10000 .f32) (a3 : FVec Ideal S256x256 .f32)
    (a4 : FVec Ideal S256 .f32) (h : fn (F := Ideal) a0 a1 a2 a3 a4 = fun _ => 1#1) :
    (∀ i, IsReal (a0 i)) ∧ (∀ i, IsReal (a1 i)) ∧ (∀ i, IsReal (a2 i)) ∧ (∀ i, IsReal (a3 i)) := by
  have h' := congrFun h ix0
  dsimp only [fn, fn_part1] at h'
  obtain ⟨h0123, -⟩ := IntOp.andi_eq_one.mp h'
  obtain ⟨h012, h3⟩ := IntOp.andi_eq_one.mp h0123
  obtain ⟨h01, h2⟩ := IntOp.andi_eq_one.mp h012
  obtain ⟨h0, h1⟩ := IntOp.andi_eq_one.mp h01
  exact ⟨fun i => isReal_of_abs_lt_inf _ (Host.reduce_andi_all _ _ _ _ _ h0 i),
    fun i => isReal_of_abs_lt_inf _ (Host.reduce_andi_all _ _ _ _ _ h1 i),
    fun i => isReal_of_abs_lt_inf _ (Host.reduce_andi_all _ _ _ _ _ h2 i),
    fun i => isReal_of_abs_lt_inf _ (Host.reduce_andi_all _ _ _ _ _ h3 i)⟩

end Cert.Pre_finite_inputs.FiniteInputs

end
-- ==== Proof.lean ====
/-
  A graph-convolution layer, fused, against its two-product reference.

  Both programs take v [10000, 256], two adjacency matrices ad, aa [10000, 10000], w [256, 256] and a bias b [256].
  The reference forms the support matrix S = v · w, the two products ad · S and aa · S, adds them, and adds the bias to every
  row. The kernel adds the two adjacency matrices first and multiplies once: on a grid of 50 points, point t takes rows
  200·t … 200·t + 199 of ad and aa, adds them, multiplies by S and adds the bias row; S itself is computed once, at point 0,
  into a scratch buffer the later points read. The kernel's narrowings to a 16-bit format are the identity on the extended
  reals, and its matrix products into a zero accumulator are the same sums as the reference's.

  So at (p, q) the kernel ends with Σ_κ (ad (p, κ) + aa (p, κ)) · S (κ, q) + b q and the reference with
  (Σ_κ ad (p, κ) · S (κ, q) + Σ_κ aa (p, κ) · S (κ, q)) + b q. The two are equal because (x + y) · z = x · z + y · z for real
  x, y, z: the precondition makes every entry of v, w, ad and aa a real number, and a finite sum of products of reals is a
  real, so every S (κ, q) is one. (On the extended reals the law fails for infinities of opposite sign, which is why the
  precondition is used; the bias needs no such fact.)

  The frames of the two kernel programs are the generated ones; the reference's frame is its run with the result dropped; the
  idealization rewrote nothing, so the preservation claim is trivial.
-/
import proofs.«171416_g37555194037034_cont_8to1_b_1611_11_alg».proof.Defs
import proofs.«171416_g37555194037034_cont_8to1_b_1611_11_alg».proof.Proof.Gen.Kernel
import proofs.«171416_g37555194037034_cont_8to1_b_1611_11_alg».proof.Proof.Gen.Kernel.Skeleton
import proofs.«171416_g37555194037034_cont_8to1_b_1611_11_alg».proof.Proof.Gen.Kernel.Launch
import proofs.«171416_g37555194037034_cont_8to1_b_1611_11_alg».proof.Proof.Gen.Kernel.Points
import proofs.«171416_g37555194037034_cont_8to1_b_1611_11_alg».proof.Proof.Gen.Kernel.Frame
import proofs.«171416_g37555194037034_cont_8to1_b_1611_11_alg».proof.Proof.Gen.KernelIdeal
import proofs.«171416_g37555194037034_cont_8to1_b_1611_11_alg».proof.Proof.Gen.KernelIdeal.Skeleton
import proofs.«171416_g37555194037034_cont_8to1_b_1611_11_alg».proof.Proof.Gen.KernelIdeal.Launch
import proofs.«171416_g37555194037034_cont_8to1_b_1611_11_alg».proof.Proof.Gen.KernelIdeal.Points
import proofs.«171416_g37555194037034_cont_8to1_b_1611_11_alg».proof.Proof.Gen.KernelIdeal.Frame
import proofs.«171416_g37555194037034_cont_8to1_b_1611_11_alg».proof.Proof.Gen.ReferenceIdeal
import proofs.«171416_g37555194037034_cont_8to1_b_1611_11_alg».proof.Proof.Gen.Pre_finite_inputs
import proofs.«171416_g37555194037034_cont_8to1_b_1611_11_alg».proof.Proof.Gen.KernelIdeal.Value
import proofs.«171416_g37555194037034_cont_8to1_b_1611_11_alg».proof.Proof.Gen.ReferenceIdeal.Run
import proofs.«171416_g37555194037034_cont_8to1_b_1611_11_alg».proof.Proof.Gen.ReferenceIdeal.Read
import proofs.«171416_g37555194037034_cont_8to1_b_1611_11_alg».proof.Proof.LayerValue
import proofs.«171416_g37555194037034_cont_8to1_b_1611_11_alg».proof.Proof.RefLayer
import proofs.«171416_g37555194037034_cont_8to1_b_1611_11_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's both end at the layer's output
    of those arguments: the kernel's by its run, the reference's by distributivity over the real-valued entries. -/
theorem algebraic : Cert.algebraic_KernelIdeal_ReferenceIdeal := by
  intro m ρ m' ρ' hpre hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4, Cert.ReferenceIdeal.Read.val_main_v6_eq]
  obtain ⟨r0, r1, r2, r3⟩ := Cert.Pre_finite_inputs.FiniteInputs.isReal_of_pre _ _ _ _ _ (hpre c)
  exact Cert.ReferenceIdeal.RefLayer.result_eq _ _ _ _ _ r0 r1 r2 r3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
